-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x128x1024 : Shape := ⟨3, ![1, 128, 1024]⟩
abbrev S1x2048x1024 : Shape := ⟨3, ![1, 2048, 1024]⟩
abbrev S2048x1024 : Shape := ⟨2, ![2048, 1024]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 19
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1024x1024, .bf16⟩
  | .local _ .vmem, ⟨3, _⟩ => ⟨S1x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x128x1024, .f32⟩
  | .local _ .vmem, ⟨13, _⟩ => ⟨S1x128x1024, .f32⟩
  | .local _ .vmem, ⟨14, _⟩ => ⟨S2048x1024, .bf16⟩
  | .local _ .vmem, ⟨15, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  broadcasts_S1x1024_S128x1024 : S1x1024.Broadcasts S128x1024
  reduces_S128x2048_S128 : S128x2048.Reduces [1] S128
  shapeCasts_S128_S128x1 : S128.ShapeCasts S128x1
  broadcasts_S128x1_S128x2048 : S128x1.Broadcasts S128x2048
  shapeCasts_S128x1024_S1x128x1024 : S128x1024.ShapeCasts S1x128x1024
  dot_S2048x1024_S1024x1024_S2048x1024_1_0_0_1_n_n_wf : DotDims.WF S2048x1024 S1024x1024 S2048x1024 [1] [0] [0] [1] [] []
  dot_S128x1024_S1024x1024_S128x1024_1_0_0_1_n_n_wf : DotDims.WF S128x1024 S1024x1024 S128x1024 [1] [0] [0] [1] [] []
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x2048x1024.size a
  hwx0_0 : ∀ i : grid0.Coords, EltTy.bits .f32 = 32 ∨ (Rect.block (s := S4x2048x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x2048x1024.size a
  hwx0_3 : ∀ i : grid0.Coords, EltTy.bits .f32 = 32 ∨ (Rect.block (s := S4x2048x1024) S1x2048x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x1024.size a ≤ S4x2048x1024.size a
  hwx0_10 : ∀ i : grid0.Coords, EltTy.bits .f32 = 32 ∨ (Rect.block (s := S4x2048x1024) S1x128x1024.size (cc0_transform_10 i) (hinb0_10 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelPieces.lean ====
/-
  What one run of the kernel body leaves behind, as values.

  At the first query tile of a batch (case A) the body first fills the two scratch arrays — the keys and the values
  of the batch, each the key/value block mapped affinely — and then computes the output tile from the scratch arrays
  it has just filled. At every other tile (case B) it stores nothing into the scratch arrays and computes the output
  tile from what they already hold. In both cases the output tile is one whole store: the body's arithmetic
  (`k0_pay1` over `k0_pay5`, `k0_pay6`) of the tile's input blocks and of the scratch contents.
-/
import proofs.«430140_j49624052138252_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A fills the first scratch array with the projected keys: one whole store of `k0_pay3`. -/
theorem keys_A (c : Dev nD) (i : grid0.Coords) (arg2 : Memref sig .tc .vmem S1x128x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x2048x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x128x1024 .f32) (harg12 : arg12.IsWhole) (arg13 : Memref sig .tc .vmem S2048x1024 .bf16) (harg13 : arg13.IsWhole) (arg14 : Memref sig .tc .vmem S2048x1024 .bf16) (harg14 : arg14.IsWhole) (hc0 : cond0_0 i)
    (x0 : Vec F S1x128x1024 .f32) (x1 : Vec F S1024x1024 .bf16) (x2 : Vec F S1x1024 .f32) (x3 : Vec F S1x2048x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay3 x3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x128x1024) hz3, View.ld_unit_zero (S := S1x2048x1024) hz3, View.ld_unit_zero (S := S1024x1024) hz2, View.ld_unit_zero (S := S1x1024) hz2, View.ld_unit_zero (S := S2048x1024) hz2]

/-- Case A fills the second scratch array with the projected values: one whole store of `k0_pay4`. -/
theorem values_A (c : Dev nD) (i : grid0.Coords) (arg2 : Memref sig .tc .vmem S1x128x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x2048x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x128x1024 .f32) (harg12 : arg12.IsWhole) (arg13 : Memref sig .tc .vmem S2048x1024 .bf16) (harg13 : arg13.IsWhole) (arg14 : Memref sig .tc .vmem S2048x1024 .bf16) (harg14 : arg14.IsWhole) (hc0 : cond0_0 i)
    (x0 : Vec F S1x128x1024 .f32) (x1 : Vec F S1024x1024 .bf16) (x2 : Vec F S1x1024 .f32) (x3 : Vec F S1x2048x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay4 x3 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x128x1024) hz3, View.ld_unit_zero (S := S1x2048x1024) hz3, View.ld_unit_zero (S := S1024x1024) hz2, View.ld_unit_zero (S := S1x1024) hz2, View.ld_unit_zero (S := S2048x1024) hz2]

/-- Case A's output tile: the body's arithmetic over the keys and values it has just stored, which it reads back
    whole from the scratch arrays. -/
theorem out_A (c : Dev nD) (i : grid0.Coords) (arg2 : Memref sig .tc .vmem S1x128x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x2048x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x128x1024 .f32) (harg12 : arg12.IsWhole) (arg13 : Memref sig .tc .vmem S2048x1024 .bf16) (harg13 : arg13.IsWhole) (arg14 : Memref sig .tc .vmem S2048x1024 .bf16) (harg14 : arg14.IsWhole) (hc0 : cond0_0 i)
    (x0 : Vec F S1x128x1024 .f32) (x1 : Vec F S1024x1024 .bf16) (x2 : Vec F S1x1024 .f32) (x3 : Vec F S1x2048x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
      = k0_pay1 (k0_pay5 x0 x1 x2 (k0_pay3 x3 x4 x5) (k0_pay4 x3 x6 x7) x8) (k0_pay6 x9) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x128x1024) hz3, View.ld_unit_zero (S := S1x2048x1024) hz3, View.ld_unit_zero (S := S1024x1024) hz2, View.ld_unit_zero (S := S1x1024) hz2, View.ld_unit_zero (S := S2048x1024) hz2, View.readCov_unit_zero (S := S2048x1024) _ hz2]

/-- Case B's output tile: the same arithmetic over what the scratch arrays already hold (`xs0`, `xs1`). -/
theorem out_B (c : Dev nD) (i : grid0.Coords) (arg2 : Memref sig .tc .vmem S1x128x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x2048x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x128x1024 .f32) (harg12 : arg12.IsWhole) (arg13 : Memref sig .tc .vmem S2048x1024 .bf16) (harg13 : arg13.IsWhole) (arg14 : Memref sig .tc .vmem S2048x1024 .bf16) (harg14 : arg14.IsWhole) (hc0 : ¬cond0_0 i)
    (x0 : Vec F S1x128x1024 .f32) (x1 : Vec F S1024x1024 .bf16) (x2 : Vec F S1x1024 .f32) (x3 : Vec F S1x2048x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) (xs0 : Vec F S2048x1024 .bf16) (xs1 : Vec F S2048x1024 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1
      = k0_pay1 (k0_pay5 x0 x1 x2 xs0 xs1 x8) (k0_pay6 x9) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x128x1024) hz3, View.ld_unit_zero (S := S1x2048x1024) hz3, View.ld_unit_zero (S := S1024x1024) hz2, View.ld_unit_zero (S := S1x1024) hz2, View.ld_unit_zero (S := S2048x1024) hz2, harg13.read_unread, harg14.read_unread]

end Cert.KernelIdeal.Pieces

end
-- ==== Proof.KernelBlocks.lean ====
/-
  Where the kernel's blocks come from.

  Before the region the host casts the four weight matrices to bf16 (the identity on the extended reals, a cast at
  any instance) and reshapes the four bias vectors `[1024]` to rows `[1, 1024]`. The weight and bias windows stage
  those arrays whole at every grid point. The 64 grid points are (batch, query tile) pairs, point `t` being batch
  `t / 16` and tile `t % 16`: the query window's block at `t` is rows `128·(t % 16) … 128·(t % 16) + 127` of batch
  `t / 16` of the query array, the key/value window's block is the whole of batch `t / 16` of the key/value array, and
  the output window's block sits where the query block does. The output blocks tile the result array.
-/
import proofs.«430140_j49624052138252_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-! ## The arrays the host prepares -/

/-- `main_v0` is `main_arg2` cast to bf16. -/
theorem V_main_v0 (c : Dev nD) : (V m c main_v0 : Vec F S1024x1024 .bf16) = truncf .bf16 (m ((c : Thread nD τ).loc main_arg2)) bitsLt_bf16_f32 := by
  dsimp only [V, hostOps0]; after_results
/-- `main_v1` is `main_arg4` cast to bf16. -/
theorem V_main_v1 (c : Dev nD) : (V m c main_v1 : Vec F S1024x1024 .bf16) = truncf .bf16 (m ((c : Thread nD τ).loc main_arg4)) bitsLt_bf16_f32 := by
  dsimp only [V, hostOps0]; after_results
/-- `main_v2` is `main_arg6` cast to bf16. -/
theorem V_main_v2 (c : Dev nD) : (V m c main_v2 : Vec F S1024x1024 .bf16) = truncf .bf16 (m ((c : Thread nD τ).loc main_arg6)) bitsLt_bf16_f32 := by
  dsimp only [V, hostOps0]; after_results
/-- `main_v3` is `main_arg8` cast to bf16. -/
theorem V_main_v3 (c : Dev nD) : (V m c main_v3 : Vec F S1024x1024 .bf16) = truncf .bf16 (m ((c : Thread nD τ).loc main_arg8)) bitsLt_bf16_f32 := by
  dsimp only [V, hostOps0]; after_results
/-- `main_v4` is `main_arg3` reshaped to one row. -/
theorem V_main_v4 (c : Dev nD) : (V m c main_v4 : Vec F S1x1024 .f32) = shapeCast S1x1024 (m ((c : Thread nD τ).loc main_arg3)) shapeCasts_S1024_S1x1024 := by
  dsimp only [V, hostOps0]; after_results; rfl
/-- `main_v5` is `main_arg5` reshaped to one row. -/
theorem V_main_v5 (c : Dev nD) : (V m c main_v5 : Vec F S1x1024 .f32) = shapeCast S1x1024 (m ((c : Thread nD τ).loc main_arg5)) shapeCasts_S1024_S1x1024 := by
  dsimp only [V, hostOps0]; after_results; rfl
/-- `main_v6` is `main_arg7` reshaped to one row. -/
theorem V_main_v6 (c : Dev nD) : (V m c main_v6 : Vec F S1x1024 .f32) = shapeCast S1x1024 (m ((c : Thread nD τ).loc main_arg7)) shapeCasts_S1024_S1x1024 := by
  dsimp only [V, hostOps0]; after_results; rfl
/-- `main_v7` is `main_arg9` reshaped to one row. -/
theorem V_main_v7 (c : Dev nD) : (V m c main_v7 : Vec F S1x1024 .f32) = shapeCast S1x1024 (m ((c : Thread nD τ).loc main_arg9)) shapeCasts_S1024_S1x1024 := by
  dsimp only [V, hostOps0]; after_results; rfl

/-! ## The printed index maps, decided over the 64 grid points -/

/-- The query window, the key/value window and the output window: point `t` is batch `t / 16`, tile `t % 16`. -/
theorem idx_moving : ∀ t : Fin cfg0.N,
    (win0_0.index t (0 : Fin 3) = t.val / 16 ∧ win0_0.index t (1 : Fin 3) = t.val % 16 ∧ win0_0.index t (2 : Fin 3) = 0)
    ∧ (win0_3.index t (0 : Fin 3) = t.val / 16 ∧ win0_3.index t (1 : Fin 3) = 0 ∧ win0_3.index t (2 : Fin 3) = 0)
    ∧ (win0_10.index t (0 : Fin 3) = t.val / 16 ∧ win0_10.index t (1 : Fin 3) = t.val % 16 ∧ win0_10.index t (2 : Fin 3) = 0) :=
  (by decide +kernel : ∀ t : Fin grid0.N, _)

/-- The weight and bias windows stay at block (0, 0). -/
theorem idx_still : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## The blocks of the whole-array windows -/

/-- Window 1 stages `main_v0` whole at every point. -/
theorem blk1 (c : Dev nD) (t : Fin cfg0.N) : (iblk m c 1 t : Vec F S1024x1024 .bf16) = V m c main_v0 := by
  funext y
  unfold iblk
  rw [View.read_apply]
  show V m c main_v0 _ = V m c main_v0 y
  congr 1
  funext a
  apply Fin.ext
  have h := (idx_still t).1
  match a with
  | ⟨0, _⟩ => show win0_1.index t 0 * 1024 + 1 * (y 0).val = (y 0).val; rw [h.1]; omega
  | ⟨1, _⟩ => show win0_1.index t 1 * 1024 + 1 * (y 1).val = (y 1).val; rw [h.2]; omega

/-- Window 2 stages `main_v4` whole at every point. -/
theorem blk2 (c : Dev nD) (t : Fin cfg0.N) : (iblk m c 2 t : Vec F S1x1024 .f32) = V m c main_v4 := by
  funext y
  unfold iblk
  rw [View.read_apply]
  show V m c main_v4 _ = V m c main_v4 y
  congr 1
  funext a
  apply Fin.ext
  have h := (idx_still t).2.1
  match a with
  | ⟨0, _⟩ => show win0_2.index t 0 * 1 + 1 * (y 0).val = (y 0).val; rw [h.1]; omega
  | ⟨1, _⟩ => show win0_2.index t 1 * 1024 + 1 * (y 1).val = (y 1).val; rw [h.2]; omega

/-- Window 4 stages `main_v1` whole at every point. -/
theorem blk4 (c : Dev nD) (t : Fin cfg0.N) : (iblk m c 4 t : Vec F S1024x1024 .bf16) = V m c main_v1 := by
  funext y
  unfold iblk
  rw [View.read_apply]
  show V m c main_v1 _ = V m c main_v1 y
  congr 1
  funext a
  apply Fin.ext
  have h := (idx_still t).2.2.1
  match a with
  | ⟨0, _⟩ => show win0_4.index t 0 * 1024 + 1 * (y 0).val = (y 0).val; rw [h.1]; omega
  | ⟨1, _⟩ => show win0_4.index t 1 * 1024 + 1 * (y 1).val = (y 1).val; rw [h.2]; omega

/-- Window 5 stages `main_v5` whole at every point. -/
theorem blk5 (c : Dev nD) (t : Fin cfg0.N) : (iblk m c 5 t : Vec F S1x1024 .f32) = V m c main_v5 := by
  funext y
  unfold iblk
  rw [View.read_apply]
  show V m c main_v5 _ = V m c main_v5 y
  congr 1
  funext a
  apply Fin.ext
  have h := (idx_still t).2.2.2.1
  match a with
  | ⟨0, _⟩ => show win0_5.index t 0 * 1 + 1 * (y 0).val = (y 0).val; rw [h.1]; omega
  | ⟨1, _⟩ => show win0_5.index t 1 * 1024 + 1 * (y 1).val = (y 1).val; rw [h.2]; omega

/-- Window 6 stages `main_v2` whole at every point. -/
theorem blk6 (c : Dev nD) (t : Fin cfg0.N) : (iblk m c 6 t : Vec F S1024x1024 .bf16) = V m c main_v2 := by
  funext y
  unfold iblk
  rw [View.read_apply]
  show V m c main_v2 _ = V m c main_v2 y
  congr 1
  funext a
  apply Fin.ext
  have h := (idx_still t).2.2.2.2.1
  match a with
  | ⟨0, _⟩ => show win0_6.index t 0 * 1024 + 1 * (y 0).val = (y 0).val; rw [h.1]; omega
  | ⟨1, _⟩ => show win0_6.index t 1 * 1024 + 1 * (y 1).val = (y 1).val; rw [h.2]; omega

/-- Window 7 stages `main_v6` whole at every point. -/
theorem blk7 (c : Dev nD) (t : Fin cfg0.N) : (iblk m c 7 t : Vec F S1x1024 .f32) = V m c main_v6 := by
  funext y
  unfold iblk
  rw [View.read_apply]
  show V m c main_v6 _ = V m c main_v6 y
  congr 1
  funext a
  apply Fin.ext
  have h := (idx_still t).2.2.2.2.2.1
  match a with
  | ⟨0, _⟩ => show win0_7.index t 0 * 1 + 1 * (y 0).val = (y 0).val; rw [h.1]; omega
  | ⟨1, _⟩ => show win0_7.index t 1 * 1024 + 1 * (y 1).val = (y 1).val; rw [h.2]; omega

/-- Window 8 stages `main_v3` whole at every point. -/
theorem blk8 (c : Dev nD) (t : Fin cfg0.N) : (iblk m c 8 t : Vec F S1024x1024 .bf16) = V m c main_v3 := by
  funext y
  unfold iblk
  rw [View.read_apply]
  show V m c main_v3 _ = V m c main_v3 y
  congr 1
  funext a
  apply Fin.ext
  have h := (idx_still t).2.2.2.2.2.2.1
  match a with
  | ⟨0, _⟩ => show win0_8.index t 0 * 1024 + 1 * (y 0).val = (y 0).val; rw [h.1]; omega
  | ⟨1, _⟩ => show win0_8.index t 1 * 1024 + 1 * (y 1).val = (y 1).val; rw [h.2]; omega

/-- Window 9 stages `main_v7` whole at every point. -/
theorem blk9 (c : Dev nD) (t : Fin cfg0.N) : (iblk m c 9 t : Vec F S1x1024 .f32) = V m c main_v7 := by
  funext y
  unfold iblk
  rw [View.read_apply]
  show V m c main_v7 _ = V m c main_v7 y
  congr 1
  funext a
  apply Fin.ext
  have h := (idx_still t).2.2.2.2.2.2.2
  match a with
  | ⟨0, _⟩ => show win0_9.index t 0 * 1 + 1 * (y 0).val = (y 0).val; rw [h.1]; omega
  | ⟨1, _⟩ => show win0_9.index t 1 * 1024 + 1 * (y 1).val = (y 1).val; rw [h.2]; omega

/-! ## The blocks of the moving windows -/

/-- Row `r` of the query tile at point `t` is row `128·(t % 16) + r` of batch `t / 16` of the query array. -/
theorem qblk_apply (c : Dev nD) (t : Fin cfg0.N) (r : Fin 128) (d : Fin 1024) (b : Fin 4) (s : Fin 2048)
    (hb : b.val = t.val / 16) (hs : s.val = 128 * (t.val % 16) + r.val) :
    (iblk m c 0 t : Vec F S1x128x1024 .f32) (ix3 (0 : Fin 1) r d) = m ((c : Thread nD τ).loc main_arg0) (ix3 b s d) := by
  unfold iblk
  rw [View.read_apply]
  show V m c main_arg0 _ = _
  rw [V_main_arg0]
  congr 1
  funext a
  apply Fin.ext
  have h := (idx_moving t).1
  match a with
  | ⟨0, _⟩ => show win0_0.index t 0 * 1 + 1 * ((0 : Fin 1) : ℕ) = b.val; rw [h.1, hb]; simp
  | ⟨1, _⟩ => show win0_0.index t 1 * 128 + 1 * r.val = s.val; rw [h.2.1, hs]; omega
  | ⟨2, _⟩ => show win0_0.index t 2 * 1024 + 1 * d.val = d.val; rw [h.2.2]; omega

/-- Row `u` of the key/value block at point `t` is row `u` of batch `t / 16` of the key/value array. -/
theorem kvblk_apply (c : Dev nD) (t : Fin cfg0.N) (u : Fin 2048) (d : Fin 1024) (b : Fin 4) (hb : b.val = t.val / 16) :
    (iblk m c 3 t : Vec F S1x2048x1024 .f32) (ix3 (0 : Fin 1) u d) = m ((c : Thread nD τ).loc main_arg1) (ix3 b u d) := by
  unfold iblk
  rw [View.read_apply]
  show V m c main_arg1 _ = _
  rw [V_main_arg1]
  congr 1
  funext a
  apply Fin.ext
  have h := (idx_moving t).2.1
  match a with
  | ⟨0, _⟩ => show win0_3.index t 0 * 1 + 1 * ((0 : Fin 1) : ℕ) = b.val; rw [h.1, hb]; simp
  | ⟨1, _⟩ => show win0_3.index t 1 * 2048 + 1 * u.val = u.val; rw [h.2.1]; omega
  | ⟨2, _⟩ => show win0_3.index t 2 * 1024 + 1 * d.val = d.val; rw [h.2.2]; omega

end Cert.KernelIdeal.Blocks

end
-- ==== Proof.KernelCarried.lean ====
/-
  The scratch arrays between grid points, and the tile every point writes back.

  The body fills its two scratch arrays — the keys and the values of a batch — at the batch's first query tile and
  only reads them at the other fifteen. So after every point of batch `b` they hold the keys and values of batch
  `b` (`carried`, by induction over the points), and every point, first of its batch or not, writes back the same
  term: the body's arithmetic of its query tile, the weights and biases, and the keys and values of its batch
  (`flushed_tile`).
-/
import proofs.«430140_j49624052138252_3_alg».proof.Proof.Gen.KernelIdeal.Value
import proofs.«430140_j49624052138252_3_alg».proof.Proof.KernelPieces
import proofs.«430140_j49624052138252_3_alg».proof.Proof.KernelBlocks
import Idealize.ShloMosaic.Lib.Pipeline.Value
import Idealize.ShloMosaic.Lib.ValueIdx

set_option maxRecDepth 16384

noncomputable section

namespace Cert.KernelIdeal.Carried

open Cert.KernelIdeal Cert.KernelIdeal.Gen Cert.KernelIdeal.Blocks
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Batch `b` of the key/value array, as the block the key/value window stages at every point of that batch. -/
abbrev kvOf (c : Dev nD) (b : Fin 4) : Vec F S1x2048x1024 .f32 :=
  fun y => m ((c : Thread nD τ).loc main_arg1) (ix3 b (y 1) (y 2))

theorem blk3 (c : Dev nD) (t : Fin cfg0.N) (b : Fin 4) (hb : b.val = t.val / 16) :
    (iblk m c 3 t : Vec F S1x2048x1024 .f32) = kvOf m c b := by
  funext y
  obtain ⟨z, u, d, rfl⟩ : ∃ (z : Fin 1) (u : Fin 2048) (d : Fin 1024), y = ix3 z u d := ⟨y 0, y 1, y 2, eq_ix3 y⟩
  obtain rfl : z = 0 := Subsingleton.elim _ _
  exact kvblk_apply m c t u d b hb

/-- The keys and the values of batch `b`: the batch's key/value rows mapped affinely (the body's `k0_pay3`, `k0_pay4`). -/
abbrev keysOf (c : Dev nD) (b : Fin 4) : Vec F S2048x1024 .bf16 := k0_pay3 (kvOf m c b) (V m c main_v1) (V m c main_v5)
abbrev valuesOf (c : Dev nD) (b : Fin 4) : Vec F S2048x1024 .bf16 := k0_pay4 (kvOf m c b) (V m c main_v2) (V m c main_v6)

/-- After every point of batch `b` the two scratch arrays hold the keys and the values of batch `b`: the batch's first
    point stores them, the other fifteen leave them. -/
theorem carried (c : Dev nD) : ∀ (n : ℕ) (hn : n < cfg0.N) (b : Fin 4), b.val = n / 16 →
    (outsAt0 m c n hn).2.1 = keysOf m c b ∧ (outsAt0 m c n hn).2.2 = valuesOf m c b
  | 0, hn, b, hb => by
    rw [outsAt0_A m c ⟨0, hn⟩ rfl]
    dsimp only
    rw [Pieces.keys_A, Pieces.values_A, blk3 m c ⟨0, hn⟩ b hb, blk4, blk5, blk6, blk7]
    exact ⟨rfl, rfl⟩
  | n + 1, hn, b, hb => by
    have hN : cfg0.N = 64 := N_0
    by_cases h0 : (n + 1) % 16 = 0
    · rw [outsAt0_A m c ⟨n + 1, hn⟩ h0]
      dsimp only
      rw [Pieces.keys_A, Pieces.values_A, blk3 m c ⟨n + 1, hn⟩ b hb, blk4, blk5, blk6, blk7]
      exact ⟨rfl, rfl⟩
    · rw [outsAt0_B m c ⟨n + 1, hn⟩ h0]
      dsimp only
      unfold sout0_B_0 sout0_B_1
      exact carried c n (Nat.lt_of_succ_lt hn) b (by omega)

/-- The output tile of point `t` of batch `b`: the body's arithmetic of the query tile, the weights and biases as the
    host prepared them, and the keys and values of the batch. -/
abbrev tileAt (c : Dev nD) (t : Fin cfg0.N) (b : Fin 4) : Vec F S1x128x1024 .f32 :=
  k0_pay1 (k0_pay5 (iblk m c 0 t) (V m c main_v0) (V m c main_v4) (keysOf m c b) (valuesOf m c b) (V m c main_v3))
    (k0_pay6 (V m c main_v7))

/-- WHAT POINT `t` WRITES BACK is that tile, at the batch's first point (which has just stored the keys and values) and
    at the others (which find them in the scratch arrays) alike. -/
theorem flushed_tile (c : Dev nD) (t : Fin cfg0.N) (b : Fin 4) (hb : b.val = t.val / 16) :
    (dats m 0 c).flushed 10 t = (cfg0.win 10).cut (grid0.coords t) (tileAt m c t b) := by
  have hN : cfg0.N = 64 := N_0
  by_cases h0 : t.val % 16 = 0
  · rw [Value.flushed10_A m c t h0, Pieces.out_A, blk1, blk2, blk3 m c t b hb, blk4, blk5, blk6, blk7, blk8, blk9]
  · rw [Value.flushed10_B m c t h0, Pieces.out_B, blk1, blk2, blk8, blk9,
      (carried m c (t.val - 1) (Nat.lt_of_le_of_lt (Nat.sub_le _ _) t.isLt) b (by omega)).1,
      (carried m c (t.val - 1) (Nat.lt_of_le_of_lt (Nat.sub_le _ _) t.isLt) b (by omega)).2]

end Cert.KernelIdeal.Carried

end
-- ==== Proof.Attention.lean ====
/-
  Single-head dot-product attention with no scaling, one query row at a time, over the extended reals.

  A query row `x` (1024 entries) is mapped affinely to `q = x·Wq + bq`; every key/value row `kv t` (2048 of them,
  1024 entries each) is mapped affinely to a key `kv t·Wk + bk` and a value `kv t·Wv + bv`. The row's scores are the
  inner products `s t = ⟨q, key t⟩`; its weights are the softmax of the scores in its textbook stable form,
  `exp (s t − max s) / ∑ u, exp (s u − max s)`, the maximum taken from `−∞`; the context is the weighted sum of the
  values, and the result is the context mapped affinely by `Wo, bo`.

  Everything here is a function of ONE query row and of the key/value rows it attends to: a whole batch of queries
  (the reference: 4 × 2048 rows) and a tile of 128 of them (the kernel) are both "this function, row by row", which is
  why the two programs agree whatever the tiling. `attention` is the whole-array form: the result at `(b, s, f)` is
  `attend` of query row `(b, s)` against the key/value rows of batch `b`, read at `f`.
-/
import Idealize.ShloMosaic.PureOps.Ideal
import Idealize.ShloMosaic.Lib.ValueIdx

noncomputable section

namespace Cert.Attn

open Idealize.ShloMosaic Idealize.ShloMosaic.ValueIdx

/-- A row mapped affinely: `(x·W + bias) e = (∑ d, x d · W d e) + bias e`. -/
def affine (x : Fin 1024 → EReal) (W : Fin 1024 → Fin 1024 → EReal) (bias : Fin 1024 → EReal) : Fin 1024 → EReal :=
  fun e => (∑ d : Fin 1024, x d * W d e) + bias e

/-- The scores of a projected query row against the keys: `s t = ∑ e, q e · K t e`. -/
def score (q : Fin 1024 → EReal) (K : Fin 2048 → Fin 1024 → EReal) : Fin 2048 → EReal :=
  fun t => ∑ e : Fin 1024, q e * K t e

/-- The largest score of a row, the maximum taken from `−∞`. -/
def peak (s : Fin 2048 → EReal) : EReal := (Finset.univ : Finset (Fin 2048)).fold max ⊥ s

/-- The unnormalised softmax weights: `exp (s t − peak s)`. -/
def unnorm (s : Fin 2048 → EReal) : Fin 2048 → EReal := fun t => Ideal.exp (s t - peak s)

/-- The softmax weights: the unnormalised ones over their sum. -/
def weight (s : Fin 2048 → EReal) : Fin 2048 → EReal :=
  fun t => Ideal.div (unnorm s t) (∑ u : Fin 2048, unnorm s u)

/-- The weighted sum of the value rows: `(a·V) e = ∑ t, a t · V t e`. -/
def mix (a : Fin 2048 → EReal) (V : Fin 2048 → Fin 1024 → EReal) : Fin 1024 → EReal :=
  fun e => ∑ t : Fin 2048, a t * V t e

/-- The context of a projected query row `q` against keys `K` and values `V`, mapped affinely by `Wo, bo`: the part of
    attention that comes after the three input projections. -/
def attendProjected (q : Fin 1024 → EReal) (K V : Fin 2048 → Fin 1024 → EReal)
    (Wo : Fin 1024 → Fin 1024 → EReal) (bo : Fin 1024 → EReal) : Fin 1024 → EReal :=
  affine (mix (weight (score q K)) V) Wo bo

/-- Attention of ONE query row `x` against the key/value rows `kv`. -/
def attend (x : Fin 1024 → EReal) (kv : Fin 2048 → Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 1024 → EReal) (bo : Fin 1024 → EReal) :
    Fin 1024 → EReal :=
  attendProjected (affine x Wq bq) (fun t => affine (kv t) Wk bk) (fun t => affine (kv t) Wv bv) Wo bo

/-- A rank-2 array as a function of its two coordinates, and a rank-1 array as a function of its one. -/
abbrev mat {a b : ℕ} (W : (⟨2, ![a, b]⟩ : Shape).Idx → EReal) : Fin a → Fin b → EReal := fun d e => W (ix2 d e)
abbrev vec {a : ℕ} (v : (⟨1, ![a]⟩ : Shape).Idx → EReal) : Fin a → EReal := fun e => v (ix1 e)

/-- Row `r` of a staged `[1, n, 1024]` block, and a staged `[1, 1024]` bias row, as functions of the column. -/
abbrev blockRow {n : ℕ} (x : (⟨3, ![1, n, 1024]⟩ : Shape).Idx → EReal) (r : Fin n) : Fin 1024 → EReal :=
  fun d => x (ix3 (0 : Fin 1) r d)
abbrev biasRow (v : (⟨2, ![1, 1024]⟩ : Shape).Idx → EReal) : Fin 1024 → EReal := fun e => v (ix2 (0 : Fin 1) e)

/-- THE WHOLE-ARRAY FUNCTION both programs compute: at `(b, s, f)`, attention of query row `(b, s)` against the
    key/value rows of batch `b`, read at `f`. -/
def attention (query keyValue : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨3, ![4, 2048, 1024]⟩ : Shape).Idx → EReal :=
  fun i => attend (fun d => query (ix3 (i 0) (i 1) d)) (fun t d => keyValue (ix3 (i 0) t d))
    (mat Wq) (vec bq) (mat Wk) (vec bk) (mat Wv) (vec bv) (mat Wo) (vec bo) (i 2)

end Cert.Attn

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KernelRows.lean ====
/-
  The kernel body's arithmetic, read at an index, is attention row by row.

  At a grid point the body holds a tile of 128 query rows, the four weight matrices, the four bias rows (staged as
  `[1, 1024]` arrays) and — in two scratch arrays — the 2048 projected keys and values of the tile's batch. The keys and the
  values are the key/value block's rows mapped affinely (`keys_apply`, `values_apply`). Row `r` of the output tile is the
  tile's row `r` mapped affinely, scored against the keys, turned into softmax weights (row maximum from `−∞`,
  exponentials of the differences, their sum, the quotients), used to mix the values, and mapped affinely once more
  (`tile_apply`): `Cert.Attn.attendProjected`. Changes of float format are the identity on the extended reals, a product
  accumulated into a zero array is the plain sum, and the two lane reductions are a fold of `max` and a sum over the
  2048 score columns.
-/
import proofs.«430140_j49624052138252_3_alg».proof.Proof.Gen.KernelIdeal.Skeleton
import proofs.«430140_j49624052138252_3_alg».proof.Proof.Attention
import proofs.«430140_j49624052138252_3_alg».proof.Proof.LibBroadcastColumn
import proofs.«430140_j49624052138252_3_alg».proof.Proof.LibColumnCast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Cert.Attn
open Idealize.ShloMosaic Idealize.ShloMosaic.TcCoe Idealize.ShloMosaic.ValueIdx

/-! ## The four products, read at an index

Each product accumulates into a zero array, so at an output index it is the plain sum, over the one contracted
axis, of the operands' products. The operand indices are read axis by axis: a kept axis carries the output's
coordinate, the contracted axis the summation index. -/

/-! ### Rows of the key/value block times a weight matrix: `[2048, 1024] · [1024, 1024]` -/

theorem blockProj_lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem blockProj_lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem blockProj_rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem blockProj_rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- A block row times a weight matrix: at `(t, e)` the sum over the feature `d` of `l (t, d) · w (d, e)`. -/
theorem blockProj_apply {φ₁ φ₂ : FTy} (l : FVec Ideal S2048x1024 φ₁) (w : FVec Ideal S1024x1024 φ₂) (t : Fin 2048) (e : Fin 1024) :
    matmul dot_S2048x1024_S1024x1024_S2048x1024_1_0_0_1_n_n none l w (constant (F := Ideal) S2048x1024 .f32 0x00000000#32) (ix2 t e)
      = ∑ d : Fin 1024, l (ix2 t d) * w (ix2 d e) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 t e) ((contrEquiv1 dot_S2048x1024_S1024x1024_S2048x1024_1_0_0_1_n_n 1024 rfl rfl).symm k) = ix2 t k := funext fun a => Fin.ext (by
    match a with
    | ⟨0, _⟩ => exact blockProj_lhs_0 _ _
    | ⟨1, _⟩ => exact (blockProj_lhs_1 _ _).trans hk)
  have er : dot_S2048x1024_S1024x1024_S2048x1024_1_0_0_1_n_n.rhsIdx (ix2 t e) ((contrEquiv1 dot_S2048x1024_S1024x1024_S2048x1024_1_0_0_1_n_n 1024 rfl rfl).symm k) = ix2 k e := funext fun a => Fin.ext (by
    match a with
    | ⟨0, _⟩ => exact (blockProj_rhs_0 _ _).trans hk
    | ⟨1, _⟩ => exact blockProj_rhs_1 _ _)
  rw [el, er]

/-! ### Rows of the query tile times a weight matrix: `[128, 1024] · [1024, 1024]` -/

theorem tileProj_lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem tileProj_lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem tileProj_rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem tileProj_rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- A tile row times a weight matrix: at `(r, e)` the sum over the feature `d` of `l (r, d) · w (d, e)`. -/
theorem tileProj_apply {φ₁ φ₂ : FTy} (l : FVec Ideal S128x1024 φ₁) (w : FVec Ideal S1024x1024 φ₂) (r : Fin 128) (e : Fin 1024) :
    matmul dot_S128x1024_S1024x1024_S128x1024_1_0_0_1_n_n none l w (constant (F := Ideal) S128x1024 .f32 0x00000000#32) (ix2 r e)
      = ∑ d : Fin 1024, l (ix2 r d) * w (ix2 d e) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 r e) ((contrEquiv1 dot_S128x1024_S1024x1024_S128x1024_1_0_0_1_n_n 1024 rfl rfl).symm k) = ix2 r k := funext fun a => Fin.ext (by
    match a with
    | ⟨0, _⟩ => exact tileProj_lhs_0 _ _
    | ⟨1, _⟩ => exact (tileProj_lhs_1 _ _).trans hk)
  have er : dot_S128x1024_S1024x1024_S128x1024_1_0_0_1_n_n.rhsIdx (ix2 r e) ((contrEquiv1 dot_S128x1024_S1024x1024_S128x1024_1_0_0_1_n_n 1024 rfl rfl).symm k) = ix2 k e := funext fun a => Fin.ext (by
    match a with
    | ⟨0, _⟩ => exact (tileProj_rhs_0 _ _).trans hk
    | ⟨1, _⟩ => exact tileProj_rhs_1 _ _)
  rw [el, er]

/-! ### Query rows against key rows, both contracted on the feature axis: `[128, 1024] · [2048, 1024]ᵀ` -/

theorem scoreDot_lhs_0 (i : S128x2048.Idx) (q : dot_S128x1024_S2048x1024_S128x2048_1_1_0_0_n_n.contr.Idx) :
    (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
theorem scoreDot_lhs_1 (i : S128x2048.Idx) (q : dot_S128x1024_S2048x1024_S128x2048_1_1_0_0_n_n.contr.Idx) :
    (dot_S128x1024_S2048x1024_S128x2048_1_1_0_0_n_n.lhsIdx i q 1).val = (q ⟨0, by decide⟩).val :=
  dot_S128x1024_S2048x1024_S128x2048_1_1_0_0_n_n.lhsIdx_val_of_single rfl i q
theorem scoreDot_rhs_0 (i : S128x2048.Idx) (q : dot_S128x1024_S2048x1024_S128x2048_1_1_0_0_n_n.contr.Idx) :
    (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl
theorem scoreDot_rhs_1 (i : S128x2048.Idx) (q : dot_S128x1024_S2048x1024_S128x2048_1_1_0_0_n_n.contr.Idx) :
    (dot_S128x1024_S2048x1024_S128x2048_1_1_0_0_n_n.rhsIdx i q 1).val = (q ⟨0, by decide⟩).val :=
  dot_S128x1024_S2048x1024_S128x2048_1_1_0_0_n_n.rhsIdx_val_of_single rfl i q

/-- A query row against a key row: at `(r, t)` the sum over the feature `e` of `q (r, e) · k (t, e)`. -/
theorem scoreDot_apply {φ₁ φ₂ : FTy} (q : FVec Ideal S128x1024 φ₁) (k : FVec Ideal S2048x1024 φ₂) (r : Fin 128) (t : Fin 2048) :
    matmul dot_S128x1024_S2048x1024_S128x2048_1_1_0_0_n_n none q k (constant (F := Ideal) S128x2048 .f32 0x00000000#32) (ix2 r t)
      = ∑ e : Fin 1024, q (ix2 r e) * k (ix2 t e) := by
  simp only [matmul]
  rw [Ideal.matmul_constant_zero_apply, ← Equiv.sum_comp (contrEquiv1 dot_S128x1024_S2048x1024_S128x2048_1_1_0_0_n_n 1024 rfl rfl).symm]
  refine Finset.sum_congr rfl fun c _ => ?_
  have hc := contrEquiv1_symm_val dot_S128x1024_S2048x1024_S128x2048_1_1_0_0_n_n 1024 rfl rfl c
  have el : dot_S128x1024_S2048x1024_S128x2048_1_1_0_0_n_n.lhsIdx (ix2 r t) ((contrEquiv1 dot_S128x1024_S2048x1024_S128x2048_1_1_0_0_n_n 1024 rfl rfl).symm c) = ix2 r c := funext fun a => Fin.ext (by
    match a with
    | ⟨0, _⟩ => exact scoreDot_lhs_0 _ _
    | ⟨1, _⟩ => exact (scoreDot_lhs_1 _ _).trans hc)
  have er : dot_S128x1024_S2048x1024_S128x2048_1_1_0_0_n_n.rhsIdx (ix2 r t) ((contrEquiv1 dot_S128x1024_S2048x1024_S128x2048_1_1_0_0_n_n 1024 rfl rfl).symm c) = ix2 t c := funext fun a => Fin.ext (by
    match a with
    | ⟨0, _⟩ => exact scoreDot_rhs_0 _ _
    | ⟨1, _⟩ => exact (scoreDot_rhs_1 _ _).trans hc)
  rw [el, er]

/-! ### Weight rows times the value rows: `[128, 2048] · [2048, 1024]` -/

theorem mixDot_lhs_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem mixDot_lhs_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem mixDot_rhs_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem mixDot_rhs_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- A weight row times the value rows: at `(r, e)` the sum over the key position `t` of `a (r, t) · v (t, e)`. -/
theorem mixDot_apply {φ₁ φ₂ : FTy} (a : FVec Ideal S128x2048 φ₁) (v : FVec Ideal S2048x1024 φ₂) (r : Fin 128) (e : Fin 1024) :
    matmul dot_S128x2048_S2048x1024_S128x1024_1_0_0_1_n_n none a v (constant (F := Ideal) S128x1024 .f32 0x00000000#32) (ix2 r e)
      = ∑ t : Fin 2048, a (ix2 r t) * v (ix2 t e) := by
  simp only [matmul]
  rw [Ideal.matmul_constant_zero_apply, ← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 r e) ((contrEquiv1 dot_S128x2048_S2048x1024_S128x1024_1_0_0_1_n_n 2048 rfl rfl).symm k) = ix2 r k := funext fun c => Fin.ext (by
    match c with
    | ⟨0, _⟩ => exact mixDot_lhs_0 _ _
    | ⟨1, _⟩ => exact (mixDot_lhs_1 _ _).trans hk)
  have er : dot_S128x2048_S2048x1024_S128x1024_1_0_0_1_n_n.rhsIdx (ix2 r e) ((contrEquiv1 dot_S128x2048_S2048x1024_S128x1024_1_0_0_1_n_n 2048 rfl rfl).symm k) = ix2 k e := funext fun c => Fin.ext (by
    match c with
    | ⟨0, _⟩ => exact (mixDot_rhs_0 _ _).trans hk
    | ⟨1, _⟩ => exact mixDot_rhs_1 _ _)
  rw [el, er]

/-! ## The two lane reductions of a score row

Over the 2048 columns of row `r`: the maximum is the fold of `max` from the accumulator's value, which is `−∞`, and
the sum is the plain sum. The index the reduction inserts the column into is `(r, u)`. -/

/-- The accumulator word of the row maximum is `−∞`. -/
theorem negInf_word : Ideal.ofBits .f32 0xFF800000#32 = (⊥ : EReal) := by simp [Ideal.ofBits, Ideal.ieee]

/-- The row maximum of a `[128, 2048]` array at row `r`: the largest entry of the row, taken from `−∞`. -/
theorem rowMax_apply (s : FVec Ideal S128x2048 .f32) (h : S128x2048.Reduces [1] S128) (hφ : FKind.Formats .f32)
    (hacc : (0xFF800000#32 : BitVec 32) = FKind.maximumf.neutral .f32 hφ) (r : Fin 128) :
    multiReduction (F := Ideal) .maximumf [1] S128 s 0xFF800000#32 h hφ hacc (ix1 r) = peak (fun u => s (ix2 r u)) := by
  refine (Ideal.multiReduction_maximumf_single s 0xFF800000#32 h hφ hacc (ix1 r)).trans ?_
  have hl : (s ∘ h.lift (ix1 r)) = fun u : Fin 2048 => s (ix2 r u) :=
    funext fun u => congrArg s (funext fun a => Fin.ext (by match a with | ⟨0, _⟩ => rfl | ⟨1, _⟩ => rfl))
  rw [hl]
  show (Finset.univ : Finset (Fin 2048)).fold max (Ideal.ofBits .f32 0xFF800000#32) (fun u => s (ix2 r u)) = _
  rw [negInf_word]
  rfl

/-- The row sum of a `[128, 2048]` array at row `r`. -/
theorem rowSum_apply (p : FVec Ideal S128x2048 .f32) (h : S128x2048.Reduces [1] S128) (hφ : FKind.Formats .f32)
    (hacc : (0x00000000#32 : BitVec 32) = FKind.add.neutral .f32 hφ) (r : Fin 128) :
    multiReduction (F := Ideal) .add [1] S128 p 0x00000000#32 h hφ hacc (ix1 r) = ∑ u : Fin 2048, p (ix2 r u) := by
  refine (Ideal.multiReduction_add_single p 0x00000000#32 h hφ hacc (ix1 r)).trans ?_
  exact Finset.sum_congr rfl fun u _ =>
    congrArg p (funext fun a => Fin.ext (by match a with | ⟨0, _⟩ => rfl | ⟨1, _⟩ => rfl))

/-- A per-row number stood up as a column and spread over the 2048 columns reads, at `(r, t)`, the number of row `r`. -/
theorem spread_apply (v : FVec Ideal S128 .f32) (r : Fin 128) (t : Fin 2048) :
    broadcastTo S128x2048 (shapeCast S128x1 v shapeCasts_S128_S128x1) broadcasts_S128x1_S128x2048 (ix2 r t) = v (ix1 r) := by
  rw [broadcastTo_a1_ab_apply, shapeCast_a_a1_apply]

/-! ## The body's stages, each read at an index

The long payload is the composition of these stages; each is one step of attention on the whole tile, and read at
row `r` it is that step on the row. -/

/-- The scores of the tile's projected rows against the keys. -/
def scoreRows (q : FVec Ideal S128x1024 .bf16) (ks : FVec Ideal S2048x1024 .bf16) : FVec Ideal S128x2048 .f32 :=
  matmul dot_S128x1024_S2048x1024_S128x2048_1_1_0_0_n_n none q ks (constant (F := Ideal) S128x2048 .f32 0x00000000#32)

theorem scoreRows_apply (q : FVec Ideal S128x1024 .bf16) (ks : FVec Ideal S2048x1024 .bf16) (r : Fin 128) (t : Fin 2048) :
    scoreRows q ks (ix2 r t) = score (fun e => q (ix2 r e)) (mat ks) t :=
  scoreDot_apply q ks r t

/-- Every score's row maximum, spread back over the row. -/
def peakRows (s : FVec Ideal S128x2048 .f32) : FVec Ideal S128x2048 .f32 :=
  broadcastTo S128x2048 (shapeCast S128x1
    (multiReduction (F := Ideal) .maximumf [1] S128 s 0xFF800000#32 reduces_S128x2048_S128 (.inl rfl) rfl)
    shapeCasts_S128_S128x1) broadcasts_S128x1_S128x2048

theorem peakRows_apply (s : FVec Ideal S128x2048 .f32) (r : Fin 128) (t : Fin 2048) :
    peakRows s (ix2 r t) = peak (fun u => s (ix2 r u)) :=
  (spread_apply _ r t).trans (rowMax_apply s _ _ _ r)

/-- The exponentials of the scores' differences from their row maximum. -/
def unnormRows (s : FVec Ideal S128x2048 .f32) : FVec Ideal S128x2048 .f32 := exp (subf s (peakRows s))

theorem unnormRows_apply (s : FVec Ideal S128x2048 .f32) (r : Fin 128) (t : Fin 2048) :
    unnormRows s (ix2 r t) = unnorm (fun u => s (ix2 r u)) t := by
  show Ideal.exp (s (ix2 r t) - peakRows s (ix2 r t)) = _
  rw [peakRows_apply]
  rfl

/-- Every row's sum, spread back over the row. -/
def totalRows (p : FVec Ideal S128x2048 .f32) : FVec Ideal S128x2048 .f32 :=
  broadcastTo S128x2048 (shapeCast S128x1
    (multiReduction (F := Ideal) .add [1] S128 p 0x00000000#32 reduces_S128x2048_S128 (.inl rfl) rfl)
    shapeCasts_S128_S128x1) broadcasts_S128x1_S128x2048

theorem totalRows_apply (p : FVec Ideal S128x2048 .f32) (r : Fin 128) (t : Fin 2048) :
    totalRows p (ix2 r t) = ∑ u : Fin 2048, p (ix2 r u) :=
  (spread_apply _ r t).trans (rowSum_apply p _ _ _ r)

/-- The softmax weights of every row of scores. -/
def weightRows (s : FVec Ideal S128x2048 .f32) : FVec Ideal S128x2048 .bf16 :=
  truncf .bf16 (divf (unnormRows s) (totalRows (unnormRows s))) bitsLt_bf16_f32

theorem weightRows_apply (s : FVec Ideal S128x2048 .f32) (r : Fin 128) (t : Fin 2048) :
    weightRows s (ix2 r t) = weight (fun u => s (ix2 r u)) t := by
  show Ideal.div (unnormRows s (ix2 r t)) (totalRows (unnormRows s) (ix2 r t)) = _
  rw [totalRows_apply]
  simp only [unnormRows_apply]
  rfl

/-- The weighted sums of the value rows. -/
def mixRows (a : FVec Ideal S128x2048 .bf16) (vs : FVec Ideal S2048x1024 .bf16) : FVec Ideal S128x1024 .bf16 :=
  truncf .bf16 (matmul dot_S128x2048_S2048x1024_S128x1024_1_0_0_1_n_n none a vs
    (constant (F := Ideal) S128x1024 .f32 0x00000000#32)) bitsLt_bf16_f32

theorem mixRows_apply (a : FVec Ideal S128x2048 .bf16) (vs : FVec Ideal S2048x1024 .bf16) (r : Fin 128) (e : Fin 1024) :
    mixRows a vs (ix2 r e) = mix (fun t => a (ix2 r t)) (mat vs) e :=
  mixDot_apply a vs r e

/-- The tile's rows times a weight matrix as the body loads it. -/
def projRows (l : FVec Ideal S128x1024 .bf16) (w : FVec Ideal S1024x1024 .bf16) : FVec Ideal S128x1024 .f32 :=
  matmul dot_S128x1024_S1024x1024_S128x1024_1_0_0_1_n_n none l (shapeCast S1024x1024 w shapeCasts_S1024x1024_S1024x1024)
    (constant (F := Ideal) S128x1024 .f32 0x00000000#32)

theorem projRows_apply (l : FVec Ideal S128x1024 .bf16) (w : FVec Ideal S1024x1024 .bf16) (r : Fin 128) (e : Fin 1024) :
    projRows l w (ix2 r e) = ∑ d : Fin 1024, l (ix2 r d) * w (ix2 d e) := by
  unfold projRows
  rw [shapeCast_self]
  exact tileProj_apply l w r e

/-- A staged `[1, 1024]` bias row added to every row of the tile. -/
def biasRows (bias : FVec Ideal S1x1024 .f32) : FVec Ideal S128x1024 .f32 :=
  broadcastTo S128x1024 (shapeCast S1x1024 bias shapeCasts_S1x1024_S1x1024) broadcasts_S1x1024_S128x1024

theorem biasRows_apply (bias : FVec Ideal S1x1024 .f32) (r : Fin 128) (e : Fin 1024) :
    biasRows bias (ix2 r e) = biasRow bias e := by
  unfold biasRows
  rw [shapeCast_self]
  exact broadcastTo_1b_ab_apply bias _ r e

/-- The query tile's rows mapped affinely. -/
def queryRows (x : FVec Ideal S1x128x1024 .f32) (wq : FVec Ideal S1024x1024 .bf16) (bq : FVec Ideal S1x1024 .f32) :
    FVec Ideal S128x1024 .bf16 :=
  truncf .bf16 (addf
    (projRows (truncf .bf16 (shapeCast S128x1024 x shapeCasts_S1x128x1024_S128x1024) bitsLt_bf16_f32) wq)
    (biasRows bq)) bitsLt_bf16_f32

theorem queryRows_apply (x : FVec Ideal S1x128x1024 .f32) (wq : FVec Ideal S1024x1024 .bf16) (bq : FVec Ideal S1x1024 .f32)
    (r : Fin 128) (e : Fin 1024) :
    queryRows x wq bq (ix2 r e) = affine (blockRow x r) (mat wq) (biasRow bq) e := by
  show projRows (truncf .bf16 (shapeCast S128x1024 x shapeCasts_S1x128x1024_S128x1024) bitsLt_bf16_f32) wq (ix2 r e)
      + biasRows bq (ix2 r e) = _
  rw [projRows_apply, biasRows_apply]
  refine congrArg (· + biasRow bq e) (Finset.sum_congr rfl fun d _ => ?_)
  exact congrArg (· * wq (ix2 d e)) (shapeCast_1ab_ab_apply x _ r d)

/-! ## The payloads are these stages -/

/-- The key/value block as the body reads it, cast to `[2048, 1024]`: row `t` is the block's row `t`. -/
theorem blockRows_apply (kv : FVec Ideal S1x2048x1024 .f32) (t : Fin 2048) (d : Fin 1024) :
    k0_pay2 (F := Ideal) kv (ix2 t d) = blockRow kv t d := by
  show shapeCast S2048x1024 kv shapeCasts_S1x2048x1024_S2048x1024 (ix2 t d) = _
  exact shapeCast_1ab_ab_apply kv _ t d

/-- The block's rows times a weight matrix plus a staged bias row, as the body stores it in a scratch array. -/
def blockAffine (l : FVec Ideal S2048x1024 .bf16) (w : FVec Ideal S1024x1024 .bf16) (bias : FVec Ideal S1x1024 .f32) :
    FVec Ideal S2048x1024 .bf16 :=
  shapeCast S2048x1024 (truncf .bf16 (addf
    (matmul dot_S2048x1024_S1024x1024_S2048x1024_1_0_0_1_n_n none l (shapeCast S1024x1024 w shapeCasts_S1024x1024_S1024x1024)
      (constant (F := Ideal) S2048x1024 .f32 0x00000000#32))
    (broadcastTo S2048x1024 (shapeCast S1x1024 bias shapeCasts_S1x1024_S1x1024) broadcasts_S1x1024_S2048x1024))
    bitsLt_bf16_f32) shapeCasts_S2048x1024_S2048x1024

theorem blockAffine_apply (l : FVec Ideal S2048x1024 .bf16) (w : FVec Ideal S1024x1024 .bf16) (bias : FVec Ideal S1x1024 .f32)
    (t : Fin 2048) (e : Fin 1024) :
    blockAffine l w bias (ix2 t e) = (∑ d : Fin 1024, l (ix2 t d) * w (ix2 d e)) + biasRow bias e := by
  unfold blockAffine
  simp only [shapeCast_self]
  show matmul dot_S2048x1024_S1024x1024_S2048x1024_1_0_0_1_n_n none l w (constant (F := Ideal) S2048x1024 .f32 0x00000000#32) (ix2 t e)
      + broadcastTo S2048x1024 bias broadcasts_S1x1024_S2048x1024 (ix2 t e) = _
  rw [blockProj_apply, broadcastTo_1b_ab_apply]

/-- A scratch array's contents: the block's rows mapped affinely. -/
theorem blockAffine_rows (kv : FVec Ideal S1x2048x1024 .f32) (w : FVec Ideal S1024x1024 .bf16) (bias : FVec Ideal S1x1024 .f32)
    (t : Fin 2048) (e : Fin 1024) :
    blockAffine (k0_pay2 (F := Ideal) kv) w bias (ix2 t e) = affine (blockRow kv t) (mat w) (biasRow bias) e := by
  rw [blockAffine_apply]
  refine congrArg (· + biasRow bias e) (Finset.sum_congr rfl fun d _ => ?_)
  exact congrArg (· * w (ix2 d e)) (blockRows_apply kv t d)

/-- The body's long payload is the composition of the stages: project the query rows, score them against the keys,
    take the softmax weights, mix the values, project once more. -/
theorem body_eq (x : FVec Ideal S1x128x1024 .f32) (wq : FVec Ideal S1024x1024 .bf16) (bq : FVec Ideal S1x1024 .f32)
    (ks vs : FVec Ideal S2048x1024 .bf16) (wo : FVec Ideal S1024x1024 .bf16) :
    k0_pay5 (F := Ideal) x wq bq ks vs wo
      = projRows (mixRows (weightRows (scoreRows (queryRows x wq bq) ks)) vs) wo := rfl

/-- The projected keys the body stores in its first scratch array: row `t` of the key/value block mapped affinely. -/
theorem keys_apply (kv : FVec Ideal S1x2048x1024 .f32) (w : FVec Ideal S1024x1024 .bf16) (bias : FVec Ideal S1x1024 .f32)
    (t : Fin 2048) (e : Fin 1024) :
    k0_pay3 (F := Ideal) kv w bias (ix2 t e) = affine (blockRow kv t) (mat w) (biasRow bias) e := by
  show blockAffine (k0_pay2 (F := Ideal) kv) w bias (ix2 t e) = _
  exact blockAffine_rows kv w bias t e

/-- The projected values the body stores in its second scratch array: the same with the value weights. -/
theorem values_apply (kv : FVec Ideal S1x2048x1024 .f32) (w : FVec Ideal S1024x1024 .bf16) (bias : FVec Ideal S1x1024 .f32)
    (t : Fin 2048) (e : Fin 1024) :
    k0_pay4 (F := Ideal) kv w bias (ix2 t e) = affine (blockRow kv t) (mat w) (biasRow bias) e := by
  show blockAffine (k0_pay2 (F := Ideal) kv) w bias (ix2 t e) = _
  exact blockAffine_rows kv w bias t e

/-- Row `r` of the output tile, from the query tile `x`, the query and output weights and biases and the scratch arrays'
    contents `ks`, `vs`: attention of the projected row against those keys and values. -/
theorem tile_apply (x : FVec Ideal S1x128x1024 .f32) (wq : FVec Ideal S1024x1024 .bf16) (bq : FVec Ideal S1x1024 .f32)
    (ks vs : FVec Ideal S2048x1024 .bf16) (wo : FVec Ideal S1024x1024 .bf16) (bo : FVec Ideal S1x1024 .f32)
    (r : Fin 128) (f : Fin 1024) :
    k0_pay1 (F := Ideal) (k0_pay5 (F := Ideal) x wq bq ks vs wo) (k0_pay6 (F := Ideal) bo) (ix3 (0 : Fin 1) r f)
      = attendProjected (affine (blockRow x r) (mat wq) (biasRow bq)) (mat ks) (mat vs) (mat wo) (biasRow bo) f := by
  show shapeCast S1x128x1024 (addf (k0_pay5 (F := Ideal) x wq bq ks vs wo) (biasRows bo)) shapeCasts_S128x1024_S1x128x1024
      (ix3 (0 : Fin 1) r f) = _
  rw [shapeCast_ab_1ab_apply, body_eq]
  show projRows (mixRows (weightRows (scoreRows (queryRows x wq bq) ks)) vs) wo (ix2 r f) + biasRows bo (ix2 r f) = _
  rw [projRows_apply, biasRows_apply]
  simp only [mixRows_apply, weightRows_apply, scoreRows_apply, queryRows_apply]
  rfl

end Cert.KernelIdeal.Rows

end
-- ==== Proof.KernelResult.lean ====
/-
  The kernel's result array is attention, row by row.

  Point `t` of the grid is query tile `t % 16` of batch `t / 16`. The tile it writes back, read at `(r, f)`, is
  attention of query row `128·(t % 16) + r` of that batch against the batch's key/value rows, read at `f`: the body's
  arithmetic is `attendProjected` of the projected row (the body's payloads read at an index), its keys and values are
  the batch's key/value rows mapped affinely, the bf16 casts of the weights are the identity on the extended reals and
  the bias rows are the bias vectors. The 64 tiles are the blocks of ONE array function, `Cert.Attn.attention` of the
  ten arguments, and they tile the result array; so the array ends holding it.
-/
import proofs.«430140_j49624052138252_3_alg».proof.Proof.KernelCarried
import proofs.«430140_j49624052138252_3_alg».proof.Proof.KernelRows
import proofs.«430140_j49624052138252_3_alg».proof.Proof.Attention
import Idealize.ShloMosaic.Lib.Pipeline.Value
import Idealize.ShloMosaic.Lib.ValueIdx
import Idealize.ShloMosaic.Lib.ValueLayout

set_option maxRecDepth 16384

noncomputable section

namespace Cert.KernelIdeal.Result

open Cert.KernelIdeal Cert.KernelIdeal.Gen Cert.KernelIdeal.Blocks Cert.KernelIdeal.Carried Cert.KernelIdeal.Rows Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the result array ends holding: attention of the ten argument arrays. -/
abbrev result (c : Dev nD) : Buf (Elt Ideal) ((c : Thread nD τ).loc main_v8) :=
  attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The weights and biases as the host prepared them -/

theorem mat_main_v0 (c : Dev nD) : mat (V m c main_v0) = mat (m ((c : Thread nD τ).loc main_arg2)) := by
  rw [V_main_v0]; rfl
theorem mat_main_v1 (c : Dev nD) : mat (V m c main_v1) = mat (m ((c : Thread nD τ).loc main_arg4)) := by
  rw [V_main_v1]; rfl
theorem mat_main_v2 (c : Dev nD) : mat (V m c main_v2) = mat (m ((c : Thread nD τ).loc main_arg6)) := by
  rw [V_main_v2]; rfl
theorem mat_main_v3 (c : Dev nD) : mat (V m c main_v3) = mat (m ((c : Thread nD τ).loc main_arg8)) := by
  rw [V_main_v3]; rfl
theorem row_main_v4 (c : Dev nD) : biasRow (V m c main_v4) = vec (m ((c : Thread nD τ).loc main_arg3)) := by
  funext e; rw [V_main_v4]; exact shapeCast_a_1a_apply _ _ 0 e
theorem row_main_v5 (c : Dev nD) : biasRow (V m c main_v5) = vec (m ((c : Thread nD τ).loc main_arg5)) := by
  funext e; rw [V_main_v5]; exact shapeCast_a_1a_apply _ _ 0 e
theorem row_main_v6 (c : Dev nD) : biasRow (V m c main_v6) = vec (m ((c : Thread nD τ).loc main_arg7)) := by
  funext e; rw [V_main_v6]; exact shapeCast_a_1a_apply _ _ 0 e
theorem row_main_v7 (c : Dev nD) : biasRow (V m c main_v7) = vec (m ((c : Thread nD τ).loc main_arg9)) := by
  funext e; rw [V_main_v7]; exact shapeCast_a_1a_apply _ _ 0 e

/-! ## The keys and values of a batch -/

theorem keys_eq (c : Dev nD) (b : Fin 4) :
    mat (keysOf m c b) = fun u => affine (fun d => m ((c : Thread nD τ).loc main_arg1) (ix3 b u d))
      (mat (m ((c : Thread nD τ).loc main_arg4))) (vec (m ((c : Thread nD τ).loc main_arg5))) := by
  funext u e
  refine (keys_apply (kvOf m c b) (V m c main_v1) (V m c main_v5) u e).trans ?_
  rw [mat_main_v1, row_main_v5]

theorem values_eq (c : Dev nD) (b : Fin 4) :
    mat (valuesOf m c b) = fun u => affine (fun d => m ((c : Thread nD τ).loc main_arg1) (ix3 b u d))
      (mat (m ((c : Thread nD τ).loc main_arg6))) (vec (m ((c : Thread nD τ).loc main_arg7))) := by
  funext u e
  refine (values_apply (kvOf m c b) (V m c main_v2) (V m c main_v6) u e).trans ?_
  rw [mat_main_v2, row_main_v6]

/-! ## One tile, read at an index -/

/-- Row `r` of the tile of point `t` (batch `b`), read at `f`, is the result function at `(b, s, f)`, `s` the row's place
    in the batch. -/
theorem tileAt_apply (c : Dev nD) (t : Fin cfg0.N) (b : Fin 4) (hb : b.val = t.val / 16) (r : Fin 128) (s : Fin 2048)
    (hs : s.val = 128 * (t.val % 16) + r.val) (f : Fin 1024) :
    (tileAt m c t b : Vec Ideal S1x128x1024 .f32) (ix3 (0 : Fin 1) r f) = result m c (ix3 b s f) := by
  refine (tile_apply (iblk m c 0 t) (V m c main_v0) (V m c main_v4) (keysOf m c b) (valuesOf m c b) (V m c main_v3)
    (V m c main_v7) r f).trans ?_
  have hq : blockRow (iblk m c 0 t : Vec Ideal S1x128x1024 .f32) r = fun d => m ((c : Thread nD τ).loc main_arg0) (ix3 b s d) :=
    funext fun d => qblk_apply m c t r d b s hb hs
  rw [hq, mat_main_v0, row_main_v4, keys_eq, values_eq, mat_main_v3, row_main_v7]
  rfl

/-! ## From the tiles to the array -/

/-- WHAT POINT `t` WRITES BACK is block `t` of the result function. -/
theorem flushed_eq (c : Dev nD) (t : Fin cfg0.N) :
    (dats m 0 c).flushed 10 t = ((cfg0.win 10).blk t).view.read (Elt Ideal) (result m c) := by
  have hN : cfg0.N = 64 := N_0
  have ht := t.isLt
  rw [flushed_tile m c t ⟨t.val / 16, by omega⟩ rfl]
  funext j
  obtain ⟨z, r, f, rfl⟩ : ∃ (z : Fin 1) (r : Fin 128) (f : Fin 1024), j = ix3 z r f := ⟨j 0, j 1, j 2, eq_ix3 j⟩
  obtain rfl : z = 0 := Subsingleton.elim _ _
  rw [View.read_apply]
  have hemb : ((cfg0.win 10).blk t).view.emb (ix3 (0 : Fin 1) r f)
      = ix3 (⟨t.val / 16, by omega⟩ : Fin 4) (⟨128 * (t.val % 16) + r.val, by have := r.isLt; omega⟩ : Fin 2048) f := by
    funext a
    apply Fin.ext
    have h := (idx_moving t).2.2
    match a with
    | ⟨0, _⟩ => show win0_10.index t 0 * 1 + 1 * ((0 : Fin 1) : ℕ) = t.val / 16; rw [h.1]; simp
    | ⟨1, _⟩ => show win0_10.index t 1 * 128 + 1 * r.val = 128 * (t.val % 16) + r.val; rw [h.2.1]; omega
    | ⟨2, _⟩ => show win0_10.index t 2 * 1024 + 1 * f.val = f.val; rw [h.2.2]; omega
  show tileAt m c t ⟨t.val / 16, _⟩ (ix3 (0 : Fin 1) r f) = result m c (((cfg0.win 10).blk t).view.emb (ix3 (0 : Fin 1) r f))
  rw [hemb]
  exact tileAt_apply m c t _ rfl r _ rfl f

/-- An index of the result array is in point `t`'s block iff each coordinate is in the block's range on its axis. -/
theorem mem_blk (t : Fin cfg0.N) (i : S4x2048x1024.Idx) :
    i ∈ ((cfg0.win 10).blk t).view.set ↔ ∀ a : Fin 3, win0_10.index t a * S1x128x1024.size a ≤ (i a).val ∧ (i a).val < win0_10.index t a * S1x128x1024.size a + S1x128x1024.size a := by
  show i ∈ ((View.whole main_v8).slice (win0_10.rect t)).set ↔ _
  rw [View.set_slice_whole, Rect.mem_set_unit]
  exact Iff.rfl

/-- The 64 blocks tile the result array: index `(b, s, f)` is in the block of point `16·b + s / 128`. -/
theorem cover (i : S4x2048x1024.Idx) : ∃ t : Fin cfg0.N, (cfg0.win 10).flush t = true ∧ i ∈ ((cfg0.win 10).blk t).view.set := by
  have hN : cfg0.N = 64 := N_0
  have h0 : (i 0).val < 4 := (i 0).isLt
  have h1 : (i 1).val < 2048 := (i 1).isLt
  have h2 : (i 2).val < 1024 := (i 2).isLt
  refine ⟨⟨16 * (i 0).val + (i 1).val / 128, by omega⟩, flush0_10 _, ?_⟩
  rw [mem_blk]
  have h := (idx_moving ⟨16 * (i 0).val + (i 1).val / 128, by omega⟩).2.2
  intro a
  match a with
  | ⟨0, _⟩ => show win0_10.index _ (0 : Fin 3) * 1 ≤ (i 0).val ∧ (i 0).val < win0_10.index _ (0 : Fin 3) * 1 + 1; rw [h.1]; dsimp only; omega
  | ⟨1, _⟩ => show win0_10.index _ (1 : Fin 3) * 128 ≤ (i 1).val ∧ (i 1).val < win0_10.index _ (1 : Fin 3) * 128 + 128; rw [h.2.1]; dsimp only; omega
  | ⟨2, _⟩ => show win0_10.index _ (2 : Fin 3) * 1024 ≤ (i 2).val ∧ (i 2).val < win0_10.index _ (2 : Fin 3) * 1024 + 1024; rw [h.2.2]; omega

/-- So the result array ends holding the result function. -/
theorem final (c : Dev nD) : (dats m 0 c).arrAt 10 cfg0.N = result m c :=
  (dats m 0 c).arrAt_eq_of_cover 10 (result m c) (fun t _ => flushed_eq m c t) cover

/-- The run, read: the result array at attention of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Result

end
-- ==== Proof.ReferenceRows.lean ====
/-
  The reference program, stage by stage, is attention row by row.

  The reference maps all 4 × 2048 query rows and all 4 × 2048 key/value rows affinely, takes every batch's score matrix
  `Q·Kᵀ`, the row maxima (from `−∞`, and once more against `−∞`, which changes nothing), the exponentials of the
  differences, their row sums, the quotients, the weighted sums of the value rows and a last affine map. Read at an
  index `(b, s, f)` every stage depends only on query row `(b, s)` and on the key/value rows of batch `b`: it is
  `Cert.Attn.attend` of that row, read at `f`.
-/
import proofs.«430140_j49624052138252_3_alg».proof.Proof.Gen.ReferenceIdeal.Read
import proofs.«430140_j49624052138252_3_alg».proof.Proof.Attention
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Attn
open Idealize.ShloMosaic Idealize.ShloMosaic.TcCoe Idealize.ShloMosaic.ValueIdx Idealize.ShloMosaic.StableHlo

/-! ## The generated index maps at explicit coordinates

Each stage reads its operands through an index map written coordinate by coordinate; at an index given by its
coordinates the map is again an index given by coordinates. -/

theorem lidx_v0 (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)
theorem ridx_v0 (b : Fin 4) (s : Fin 2048) (e k : Fin 1024) : ridx_main_v0 (ix3 b s e) k = ix2 k e :=
  funext fun a => Fin.ext (by match a with | ⟨0, _⟩ => rfl | ⟨1, _⟩ => rfl)
theorem idx_v1_v2 (b : Fin 4) (s : Fin 2048) (e : Fin 1024) : idx_main_v1 (idx_main_v2 (ix3 b s e)) = ix1 e :=
  funext fun a => Fin.ext (by match a with | ⟨0, _⟩ => rfl)
theorem lidx_v12 (b : Fin 4) (s t : Fin 2048) (k : Fin 1024) : lidx_main_v12 (ix3 b s t) k = ix3 b s k :=
  funext fun a => Fin.ext (by match a with | ⟨0, _⟩ => rfl | ⟨1, _⟩ => rfl | ⟨2, _⟩ => rfl)
theorem ridx_v12 (b : Fin 4) (s t : Fin 2048) (k : Fin 1024) : ridx_main_v12 (ix3 b s t) k = ix3 b t k :=
  funext fun a => Fin.ext (by match a with | ⟨0, _⟩ => rfl | ⟨1, _⟩ => rfl | ⟨2, _⟩ => rfl)
theorem idx_v16_v17 (b : Fin 4) (s t : Fin 2048) : idx_main_v16 (idx_main_v17 (ix3 b s t)) = ix2 b s :=
  funext fun a => Fin.ext (by match a with | ⟨0, _⟩ => rfl | ⟨1, _⟩ => rfl)
theorem idx_v20 (b : Fin 4) (s k : Fin 2048) : idx_main_v20 (ix2 b s) k = ix3 b s k :=
  funext fun a => Fin.ext (by match a with | ⟨0, _⟩ => rfl | ⟨1, _⟩ => rfl | ⟨2, _⟩ => rfl)
theorem idx_v21_v22 (b : Fin 4) (s t : Fin 2048) : idx_main_v21 (idx_main_v22 (ix3 b s t)) = ix2 b s :=
  funext fun a => Fin.ext (by match a with | ⟨0, _⟩ => rfl | ⟨1, _⟩ => rfl)
theorem lidx_v24 (b : Fin 4) (s : Fin 2048) (e : Fin 1024) (k : Fin 2048) : lidx_main_v24 (ix3 b s e) k = ix3 b s k :=
  funext fun a => Fin.ext (by match a with | ⟨0, _⟩ => rfl | ⟨1, _⟩ => rfl | ⟨2, _⟩ => rfl)
theorem ridx_v24 (b : Fin 4) (s : Fin 2048) (e : Fin 1024) (k : Fin 2048) : ridx_main_v24 (ix3 b s e) k = ix3 b k e :=
  funext fun a => Fin.ext (by match a with | ⟨0, _⟩ => rfl | ⟨1, _⟩ => rfl | ⟨2, _⟩ => rfl)

/-- The pattern 0xFF800000 is binary32's minus infinity: the bottom of the extended reals. -/
theorem negInf_eq_bot : Ideal.ofBits .f32 0xFF800000#32 = (⊥ : EReal) := by
  simp [Ideal.ofBits, Ideal.ieee]

section Stages

variable (x0 x1 : (⟨S4x2048x1024, .f32⟩ : BufTy).Contents (Elt Ideal)) (x2 : (⟨S1024x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S1024x1024, .f32⟩ : BufTy).Contents (Elt Ideal))
  (x7 : (⟨S1024, .f32⟩ : BufTy).Contents (Elt Ideal)) (x8 : (⟨S1024x1024, .f32⟩ : BufTy).Contents (Elt Ideal))
  (x9 : (⟨S1024, .f32⟩ : BufTy).Contents (Elt Ideal))

/-! ## The rows the stages are functions of -/

/-- The projected query row (b, s): x·Wq + bq. -/
abbrev qProj (b : Fin 4) (s : Fin 2048) : Fin 1024 → EReal :=
  affine (fun d => x0 (ix3 b s d)) (mat (a := 1024) (b := 1024) x2) (vec (a := 1024) x3)
/-- The keys of batch b: row t is kv t·Wk + bk. -/
abbrev kProj (b : Fin 4) : Fin 2048 → Fin 1024 → EReal :=
  fun t => affine (fun d => x1 (ix3 b t d)) (mat (a := 1024) (b := 1024) x4) (vec (a := 1024) x5)
/-- The values of batch b: row t is kv t·Wv + bv. -/
abbrev vProj (b : Fin 4) : Fin 2048 → Fin 1024 → EReal :=
  fun t => affine (fun d => x1 (ix3 b t d)) (mat (a := 1024) (b := 1024) x6) (vec (a := 1024) x7)
/-- The scores of query row (b, s) against the keys of batch b. -/
abbrev rowScore (b : Fin 4) (s : Fin 2048) : Fin 2048 → EReal := score (qProj x0 x2 x3 b s) (kProj x1 x4 x5 b)

/-! ## The affine stages -/

/-- A product with a weight matrix plus a broadcast bias, read at (b, s, e): the affine image of row (b, s), at e. -/
theorem affine_read (x : (⟨S4x2048x1024, .f32⟩ : BufTy).Contents (Elt Ideal)) (W : (⟨S1024x1024, .f32⟩ : BufTy).Contents (Elt Ideal))
    (bias : (⟨S1024, .f32⟩ : BufTy).Contents (Elt Ideal)) (b : Fin 4) (s : Fin 2048) (e : Fin 1024) :
    val_main_v3 (F := Ideal) x W bias (ix3 b s e)
      = affine (fun d => x (ix3 b s d)) (mat (a := 1024) (b := 1024) W) (vec (a := 1024) bias) e := by
  rw [val_main_v3_apply, val_main_v0_apply, val_main_v2_apply, val_main_v1_apply, idx_v1_v2]
  simp only [lidx_v0, ridx_v0]
  rfl

/-- The key, value and output stages are the same affine stage, applied to other arrays. -/
theorem key_stage_eq : val_main_v7 (F := Ideal) x1 x4 x5 = val_main_v3 (F := Ideal) x1 x4 x5 := rfl
theorem value_stage_eq : val_main_v11 (F := Ideal) x1 x6 x7 = val_main_v3 (F := Ideal) x1 x6 x7 := rfl
theorem out_stage_eq : val_main_v28 (F := Ideal) x0 x1 x2 x3 x4 x5 x6 x7 x8 x9
    = val_main_v3 (F := Ideal) (val_main_v24 (F := Ideal) x0 x1 x2 x3 x4 x5 x6 x7) x8 x9 := rfl

/-! ## Scores, row maxima, weights, context -/

/-- The score matrix at (b, s, t): the inner product of projected query row (b, s) with key t of batch b. -/
theorem scores_read (b : Fin 4) (s t : Fin 2048) :
    val_main_v12 (F := Ideal) x0 x1 x2 x3 x4 x5 (ix3 b s t) = rowScore x0 x1 x2 x3 x4 x5 b s t := by
  rw [val_main_v12_apply]
  show _ = ∑ e : Fin 1024, qProj x0 x2 x3 b s e * kProj x1 x4 x5 b t e
  refine Finset.sum_congr rfl fun k _ => ?_
  rw [lidx_v12, ridx_v12, affine_read, key_stage_eq, affine_read]

/-- Over a result index (b, s) of the reduction along the last axis, the source index with coordinate k inserted is
    (b, s, k). -/
theorem lift_row (h : S4x2048x2048.Reduces [2] S4x2048) (b : Fin 4) (s k : Fin 2048) :
    h.lift (ix2 b s) k = ix3 b s k :=
  funext fun a => Fin.ext (by match a with | ⟨0, _⟩ => rfl | ⟨1, _⟩ => rfl | ⟨2, _⟩ => rfl)

/-- The maximum-reduce along the last axis, from minus infinity, at (b, s): the largest score of row (b, s). The
    operation is a fold of max over the row in some order; max commutes and associates, so it is the fold over the
    row's coordinates, and its initial value is the bottom element. -/
theorem rowmax_read (b : Fin 4) (s : Fin 2048) :
    val_main_v13 (F := Ideal) x0 x1 x2 x3 x4 x5 (ix2 b s) = peak (rowScore x0 x1 x2 x3 x4 x5 b s) := by
  have h : S4x2048x2048.Reduces [2] S4x2048 := by decide
  unfold val_main_v13
  refine (Host.reduce_eq_fold_single (FloatOps.maximumf (F := Ideal) (φ := .f32)) (val_main_v12 (F := Ideal) x0 x1 x2 x3 x4 x5)
    (val_main_cst (F := Ideal)) reducesTo_S4x2048x2048_S4x2048_d2 h h_S_ (ix2 b s)).trans ?_
  have hf : (val_main_v12 (F := Ideal) x0 x1 x2 x3 x4 x5 ∘ h.lift (ix2 b s)) = rowScore x0 x1 x2 x3 x4 x5 b s :=
    funext fun k => (congrArg (val_main_v12 (F := Ideal) x0 x1 x2 x3 x4 x5) (lift_row h b s k)).trans
      (scores_read x0 x1 x2 x3 x4 x5 b s k)
  have hb : val_main_cst (F := Ideal) (Shape.Idx.first h_S_) = (⊥ : EReal) := negInf_eq_bot
  rw [hf, hb]
  rfl

/-- The second maximum, against a broadcast minus infinity, changes nothing: max ⊥ x = x. -/
theorem rowmax_read' (b : Fin 4) (s : Fin 2048) :
    val_main_v15 (F := Ideal) x0 x1 x2 x3 x4 x5 (ix2 b s) = peak (rowScore x0 x1 x2 x3 x4 x5 b s) := by
  rw [val_main_v15_apply, val_main_v14_apply, val_main_cst_0_apply, rowmax_read]
  show max (Ideal.ofBits .f32 0xFF800000#32) _ = _
  rw [negInf_eq_bot]
  exact max_eq_right bot_le

/-- The exponentials of the differences at (b, s, t): the unnormalised weight of key t for row (b, s). -/
theorem unnorm_read (b : Fin 4) (s t : Fin 2048) :
    val_main_v19 (F := Ideal) x0 x1 x2 x3 x4 x5 (ix3 b s t) = unnorm (rowScore x0 x1 x2 x3 x4 x5 b s) t := by
  rw [val_main_v19_apply, val_main_v18_apply, val_main_v17_apply, val_main_v16_apply, idx_v16_v17, scores_read, rowmax_read']
  rfl

/-- The row sums at (b, s): the sum-reduce from zero is the sum of the row's unnormalised weights. -/
theorem norm_read (b : Fin 4) (s : Fin 2048) :
    val_main_v20 (F := Ideal) x0 x1 x2 x3 x4 x5 (ix2 b s) = ∑ u : Fin 2048, unnorm (rowScore x0 x1 x2 x3 x4 x5 b s) u := by
  rw [val_main_v20_apply, val_main_cst_1_apply]
  show Ideal.ofBits .f32 0x00000000#32 + _ = _
  rw [Ideal.ofBits_zero_f32, zero_add]
  refine Finset.sum_congr rfl fun k _ => ?_
  rw [idx_v20, unnorm_read]

/-- The quotients at (b, s, t): the softmax weight of key t for row (b, s). -/
theorem weight_read (b : Fin 4) (s t : Fin 2048) :
    val_main_v23 (F := Ideal) x0 x1 x2 x3 x4 x5 (ix3 b s t) = weight (rowScore x0 x1 x2 x3 x4 x5 b s) t := by
  rw [val_main_v23_apply, val_main_v22_apply, val_main_v21_apply, idx_v21_v22, unnorm_read, norm_read]
  rfl

/-- The weighted sums of the value rows at (b, s, e): the context of row (b, s), at e. -/
theorem context_read (b : Fin 4) (s : Fin 2048) (e : Fin 1024) :
    val_main_v24 (F := Ideal) x0 x1 x2 x3 x4 x5 x6 x7 (ix3 b s e)
      = mix (weight (rowScore x0 x1 x2 x3 x4 x5 b s)) (vProj x1 x6 x7 b) e := by
  rw [val_main_v24_apply]
  show _ = ∑ t : Fin 2048, weight (rowScore x0 x1 x2 x3 x4 x5 b s) t * vProj x1 x6 x7 b t e
  refine Finset.sum_congr rfl fun k _ => ?_
  rw [lidx_v24, ridx_v24, weight_read, value_stage_eq, affine_read]

/-- The last stage at (b, s, f): the context of row (b, s) mapped affinely by Wo, bo, at f. -/
theorem result_read (b : Fin 4) (s : Fin 2048) (f : Fin 1024) :
    val_main_v28 (F := Ideal) x0 x1 x2 x3 x4 x5 x6 x7 x8 x9 (ix3 b s f)
      = attendProjected (qProj x0 x2 x3 b s) (kProj x1 x4 x5 b) (vProj x1 x6 x7 b)
          (mat (a := 1024) (b := 1024) x8) (vec (a := 1024) x9) f := by
  rw [out_stage_eq, affine_read,
    show (fun d => val_main_v24 (F := Ideal) x0 x1 x2 x3 x4 x5 x6 x7 (ix3 b s d))
        = mix (weight (rowScore x0 x1 x2 x3 x4 x5 b s)) (vProj x1 x6 x7 b) from
      funext fun d => context_read x0 x1 x2 x3 x4 x5 x6 x7 b s d]
  rfl

end Stages

/-- The reference's last stage, as a function of the ten argument arrays, IS attention row by row. -/
theorem reference_eq (x0 x1 : (⟨S4x2048x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (x6 : (⟨S1024x1024, .f32⟩ : BufTy).Contents (Elt Ideal))
    (x7 : (⟨S1024, .f32⟩ : BufTy).Contents (Elt Ideal)) (x8 : (⟨S1024x1024, .f32⟩ : BufTy).Contents (Elt Ideal))
    (x9 : (⟨S1024, .f32⟩ : BufTy).Contents (Elt Ideal)) :
    val_main_v28 (F := Ideal) x0 x1 x2 x3 x4 x5 x6 x7 x8 x9 = attention x0 x1 x2 x3 x4 x5 x6 x7 x8 x9 := by
  funext i
  obtain ⟨b, s, f, rfl⟩ : ∃ (b : Fin 4) (s : Fin 2048) (f : Fin 1024), i = ix3 b s f := ⟨i 0, i 1, i 2, eq_ix3 i⟩
  exact result_read x0 x1 x2 x3 x4 x5 x6 x7 x8 x9 b s f

end Cert.ReferenceIdeal.RefValue

end
-- ==== Proof.lean ====
/- The proof of `Cert.Claim` (proofs.«430140_j49624052138252_3_alg».proof.Defs): a fused single-head attention kernel against
   its jnp reference, over the extended reals.

   Both programs compute, for every query row `(b, s)`, the row mapped affinely by `Wq, bq`, its inner products with
   the 2048 key rows of batch `b` (the key/value rows mapped affinely by `Wk, bk`), the softmax of those scores in the
   stable form `exp (s − max s) / ∑ exp (s − max s)`, the weighted sum of the value rows (the key/value rows mapped
   affinely by `Wv, bv`) and a last affine map by `Wo, bo`: `Cert.Attn.attention` (Proof/Attention.lean). The reference
   does this for all rows at once (Proof/ReferenceRows.lean reads its stages at an index); the kernel does it for a tile
   of 128 query rows at a time, projecting a batch's keys and values once, at the batch's first tile, into two scratch
   arrays the other fifteen tiles of the batch reuse (Proof/KernelPieces.lean: what one run of the body leaves;
   Proof/KernelCarried.lean: what the scratch arrays hold between points; Proof/KernelRows.lean: the body's arithmetic
   read at an index; Proof/KernelBlocks.lean: which rows a block holds; Proof/KernelResult.lean: the tiles are the
   blocks of the one array function and tile the result). The two sides differ only in how sums and maxima are grouped and
   in changes of float format, which are the identity on the extended reals; no law that needs finiteness is used, so
   the precondition is never opened. The frames are the generated ones; the ideal pass rewrote nothing, so `preserves`
   is trivial. -/
import proofs.«430140_j49624052138252_3_alg».proof.Defs
import proofs.«430140_j49624052138252_3_alg».proof.Proof.Gen.Kernel
import proofs.«430140_j49624052138252_3_alg».proof.Proof.Gen.Kernel.Skeleton
import proofs.«430140_j49624052138252_3_alg».proof.Proof.Gen.Kernel.Launch
import proofs.«430140_j49624052138252_3_alg».proof.Proof.Gen.Kernel.Points
import proofs.«430140_j49624052138252_3_alg».proof.Proof.Gen.Kernel.Frame
import proofs.«430140_j49624052138252_3_alg».proof.Proof.Gen.KernelIdeal
import proofs.«430140_j49624052138252_3_alg».proof.Proof.Gen.KernelIdeal.Skeleton
import proofs.«430140_j49624052138252_3_alg».proof.Proof.Gen.KernelIdeal.Launch
import proofs.«430140_j49624052138252_3_alg».proof.Proof.Gen.KernelIdeal.Points
import proofs.«430140_j49624052138252_3_alg».proof.Proof.Gen.KernelIdeal.Frame
import proofs.«430140_j49624052138252_3_alg».proof.Proof.Gen.ReferenceIdeal
import proofs.«430140_j49624052138252_3_alg».proof.Proof.Gen.Pre_finite_inputs
import proofs.«430140_j49624052138252_3_alg».proof.Proof.Gen.KernelIdeal.Value
import proofs.«430140_j49624052138252_3_alg».proof.Proof.Gen.ReferenceIdeal.Run
import proofs.«430140_j49624052138252_3_alg».proof.Proof.Gen.ReferenceIdeal.Read
import proofs.«430140_j49624052138252_3_alg».proof.Proof.KernelResult
import proofs.«430140_j49624052138252_3_alg».proof.Proof.ReferenceRows
import Idealize.ShloMosaic.Adequacy
import Idealize.ShloMosaic.Init

noncomputable section

namespace Cert.Proof

open Idealize.ShloMosaic Idealize.SL.Sem

/-- The kernel as printed runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a host program: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both result arrays end holding attention of the argument arrays: the kernel's by its tiles (`Result.run`), the
    reference's by its stages read at an index (`reference_eq`), the arguments agreeing. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v28_eq, Cert.ReferenceIdeal.RefValue.reference_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
